-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg4 : FVec F S128 .f32) (main_arg6 : FVec F S600000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S600000 .f32 := Host.absf main_arg6
  let main_cst_8 : FVec F S_ .f32 := constant S_ .f32 0x7F800000#32
  let main_v25 : FVec F S600000 .f32 := broadcastInDim S600000 ![] bcast_S_S600000 main_cst_8
  let main_v26 : IVec S600000 1 := cmpf .olt main_v24 main_v25
  let main_c_9 : IVec S_ 1 := constantI S_ 1 1#1
  let main_v27 : IVec S_ 1 := (fun x v => Host.reduce IntOp.andi x v reducesTo_S600000_S_d0 h_S_) main_v26 main_c_9
  let main_v28 : IVec S_ 1 := andi main_v23 main_v27
  main_v28

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S2x600000 32) (main_arg6 : FVec F S600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S600000 : Shape := ⟨1, ![600000]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩

abbrev nBuf : Space → Nat
  | .hbm => 33
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x600000, .i32⟩
  | .hbm, ⟨6, _⟩ => ⟨S600000, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S600000x1, .f32⟩
  | .hbm, ⟨21, _⟩ => ⟨S600000x128, .f32⟩
  | .hbm, ⟨22, _⟩ => ⟨S600000x128, .f32⟩
  | .hbm, ⟨23, _⟩ => ⟨S_, .f32⟩
  | .hbm, ⟨24, _⟩ => ⟨S100000x128, .f32⟩
  | .hbm, ⟨25, _⟩ => ⟨S600000x1, .i32⟩
  | .hbm, ⟨26, _⟩ => ⟨S100000x128, .f32⟩
  | .hbm, ⟨27, _⟩ => ⟨S128x128, .f32⟩
  | .hbm, ⟨28, _⟩ => ⟨S128x128, .f32⟩
  | .hbm, ⟨29, _⟩ => ⟨S1x128, .f32⟩
  | .hbm, ⟨30, _⟩ => ⟨S1x128, .f32⟩
  | .hbm, ⟨31, _⟩ => ⟨S100000x128, .f32⟩
  | .hbm, ⟨32, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S600000 : Shape := ⟨1, ![600000]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x600000, .i32⟩
  | .hbm, ⟨6, _⟩ => ⟨S600000, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S600000x1, .f32⟩
  | .hbm, ⟨21, _⟩ => ⟨S600000x128, .f32⟩
  | .hbm, ⟨22, _⟩ => ⟨S600000x128, .f32⟩
  | .hbm, ⟨23, _⟩ => ⟨S_, .f32⟩
  | .hbm, ⟨24, _⟩ => ⟨S100000x128, .f32⟩
  | .hbm, ⟨25, _⟩ => ⟨S600000x1, .i32⟩
  | .hbm, ⟨26, _⟩ => ⟨S100000x128, .f32⟩
  | .hbm, ⟨27, _⟩ => ⟨S128x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .i1⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_v27 : Ref sig .tc := ⟨.hbm, 50, rfl⟩
abbrev main_cst_1 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, stated once over literal shapes, with no program in sight.

  Both programs first form one array `ptr : [100000, 128]` (messages gathered along edges, scaled, and summed into
  their target rows); nothing below opens it. From `ptr`, a transposed weight matrix `wt : [128, 128]` and a bias
  row `b : [128]` each output entry is affine in row `r` of `ptr`:

      affine ptr wt b (r, q) = (∑ k, ptr (r, k) · wt (k, q)) + b q.

  The first result is that affine map; the second passes it through the numerically stabilised softplus
  `max x 0 + log (1 + exp (-|x|))` and adds the literal `ε`. The two programs spell the softplus with different
  dead guards (`x ≠ x`, which no extended real satisfies) and with `0 - |x|` against `-|x|`; `softplus_of_ordered`
  and `softplus_of_unordered` reduce both spellings to the one function.
-/
import Idealize.ShloMosaic.PureOps.Ideal
import Idealize.ShloMosaic.Lib.ValueIdx

noncomputable section

open scoped BigOperators

namespace Cert.Projection

open Idealize.ShloMosaic Idealize.ShloMosaic.ValueIdx

/-- The extended-real absolute value as both programs compute it: the larger of `x` and `-x`. -/
def eabs (x : EReal) : EReal := max x (-x)

/-- The stabilised softplus on the extended reals: `max x 0 + log (1 + exp (-|x|))`. -/
def softplus (x : EReal) : EReal := max x 0 + Ideal.log1p (Ideal.exp (-(eabs x)))

/-- No extended real differs from itself, so the "ordered and different" test of a value against itself is the zero bit. -/
theorem cmp_one_self (v : EReal) : Ideal.cmp .one v v = 0#1 := by
  simp [Ideal.cmp]

/-- … and so is the "unordered or different" test: the extended reals have no unordered pair. -/
theorem cmp_une_self (v : EReal) : Ideal.cmp .une v v = 0#1 := by
  simp [Ideal.cmp]

/-- The softplus with an "ordered and different" guard on `x - 0`, the exponent written `0 - |x - 0|`: the guard never
    fires, and the remaining branch is `softplus x`. -/
theorem softplus_of_ordered (x : EReal) :
    Scalar.select (Ideal.cmp .one (x - 0) (x - 0)) (x + 0) (max x 0 + Ideal.log1p (Ideal.exp (0 - max (x - 0) (-(x - 0)))))
      = softplus x := by
  rw [cmp_one_self]
  simp only [Scalar.select, softplus, eabs, sub_zero, zero_sub]
  rfl

/-- The same with an "unordered or different" guard and the exponent written `-|x - 0|`. -/
theorem softplus_of_unordered (x : EReal) :
    Scalar.select (Ideal.cmp .une (x - 0) (x - 0)) (x + 0) (max x 0 + Ideal.log1p (Ideal.exp (-(max (x - 0) (-(x - 0))))))
      = softplus x := by
  rw [cmp_une_self]
  simp only [Scalar.select, softplus, eabs, sub_zero]
  rfl

/-- The ordered-guard spelling with its zero left as a variable: wherever the zero comes from, the value is
    `softplus a`. -/
theorem softplus_guarded_ordered (a z : EReal) (hz : z = 0) :
    Scalar.select (Ideal.cmp .one (a - z) (a - z)) (a + z) (max a z + Ideal.log1p (Ideal.exp (z - max (a - z) (-(a - z)))))
      = softplus a := by
  subst hz; exact softplus_of_ordered a

abbrev Rows : Shape := ⟨2, ![100000, 128]⟩
abbrev Sq : Shape := ⟨2, ![128, 128]⟩
abbrev Lane : Shape := ⟨1, ![128]⟩

/-- Entry `(r, q)` of `ptr · wt + b`: row `r` of `ptr` against column `q` of `wt`, plus the bias at `q`. -/
def affine (ptr : Rows.Idx → EReal) (wt : Sq.Idx → EReal) (b : Lane.Idx → EReal) : Rows.Idx → EReal :=
  fun i => (∑ k : Fin 128, ptr (ix2 (i 0) k) * wt (ix2 k (i 1))) + b (ix1 (i 1))

/-- The second result: the softplus of the affine map, plus the literal `ε` (kept as its word: both programs carry the
    same one, so it is never evaluated). -/
def spread (ptr : Rows.Idx → EReal) (wt : Sq.Idx → EReal) (b : Lane.Idx → EReal) : Rows.Idx → EReal :=
  fun i => softplus (affine ptr wt b i) + Ideal.ofBits .f32 0x2EDBE6FF#32

end Cert.Projection

end
-- ==== Proof.RefValue.lean ====
/-
  The reference's two results, read one operation at a time, are the two whole-array functions of `Spec`:
  the first is `ptr · wt₁ + b₁`, the second the softplus of `ptr · wt₂ + b₂` plus `ε`, where `ptr` is the
  scatter-added message array (kept closed), `wtᵢ` the transposed weights and `bᵢ` the biases.

  The host's `dot_general` over the one contracted axis is the sum over `k` of row entry times column entry; its
  two broadcasts of a bias vector read the vector at the column; the softplus is the guarded, stabilised form whose
  guard never fires on the extended reals.
-/
import proofs.«137854_j51496657879183_1_alg».proof.Proof.Gen.ReferenceIdeal.Read
import proofs.«137854_j51496657879183_1_alg».proof.Proof.Spec

noncomputable section

open scoped BigOperators

namespace Cert.ReferenceIdeal.RefValue

open Cert.ReferenceIdeal Cert.ReferenceIdeal.Read Idealize.ShloMosaic Idealize.ShloMosaic.ValueIdx Cert.Projection

/-- The left factor of the first product's `k`-th term sits in the output's row, column `k`. -/
theorem lidx18_eq (i : S100000x128.Idx) (k : Fin 128) : lidx_main_v18 i k = ix2 (i 0) k :=
  funext fun a => Fin.ext (by match a with | ⟨0, _⟩ => rfl | ⟨1, _⟩ => rfl)
/-- The right factor sits in row `k`, the output's column. -/
theorem ridx18_eq (i : S100000x128.Idx) (k : Fin 128) : ridx_main_v18 i k = ix2 k (i 1) :=
  funext fun a => Fin.ext (by match a with | ⟨0, _⟩ => rfl | ⟨1, _⟩ => rfl)
/-- The same two facts for the second product. -/
theorem lidx23_eq (i : S100000x128.Idx) (k : Fin 128) : lidx_main_v23 i k = ix2 (i 0) k :=
  funext fun a => Fin.ext (by match a with | ⟨0, _⟩ => rfl | ⟨1, _⟩ => rfl)
theorem ridx23_eq (i : S100000x128.Idx) (k : Fin 128) : ridx_main_v23 i k = ix2 k (i 1) :=
  funext fun a => Fin.ext (by match a with | ⟨0, _⟩ => rfl | ⟨1, _⟩ => rfl)
/-- A bias vector made a row and then repeated down the rows is read at the output's column. -/
theorem bias1_idx (i : S100000x128.Idx) : idx_main_v19 (idx_main_v20 i) = ix1 (i 1) :=
  funext fun a => Fin.ext (by match a with | ⟨0, _⟩ => rfl)
theorem bias2_idx (i : S100000x128.Idx) : idx_main_v24 (idx_main_v25 i) = ix1 (i 1) :=
  funext fun a => Fin.ext (by match a with | ⟨0, _⟩ => rfl)

/-- The first result is the affine map of the message array, the first transposed weight and the first bias. -/
theorem loc_eq (x0 : FVec Ideal S100000x128 .f32) (x1 : FVec Ideal S128x128 .f32) (x2 : FVec Ideal S128 .f32)
    (x5 : IVec S2x600000 32) (x6 : FVec Ideal S600000 .f32) :
    val_main_v21 (F := Ideal) x0 x1 x2 x5 x6
      = affine (val_main_v16 (F := Ideal) x0 x5 x6) (val_main_v17 (F := Ideal) x1) x2 := by
  funext i
  rw [val_main_v21_apply, val_main_v18_apply, val_main_v20_apply, val_main_v19_apply]
  simp only [lidx18_eq, ridx18_eq, bias1_idx]
  rfl

/-- The pre-activation of the second result is the same affine map with the second weight and bias. -/
theorem pre_eq (x0 : FVec Ideal S100000x128 .f32) (x3 : FVec Ideal S128x128 .f32) (x4 : FVec Ideal S128 .f32)
    (x5 : IVec S2x600000 32) (x6 : FVec Ideal S600000 .f32) (i : S100000x128.Idx) :
    val_main_v26 (F := Ideal) x0 x3 x4 x5 x6 i
      = affine (val_main_v16 (F := Ideal) x0 x5 x6) (val_main_v22 (F := Ideal) x3) x4 i := by
  rw [val_main_v26_apply, val_main_v23_apply, val_main_v25_apply, val_main_v24_apply]
  simp only [lidx23_eq, ridx23_eq, bias2_idx]
  rfl

/-- The second result: the guarded softplus of that pre-activation, plus `ε`. The three broadcast zeros and the broadcast
    `ε` read their literals everywhere; the host's `abs`, `negate`, `exp` and `log_plus_one` are the extended reals' own. -/
theorem std_eq (x0 : FVec Ideal S100000x128 .f32) (x3 : FVec Ideal S128x128 .f32) (x4 : FVec Ideal S128 .f32)
    (x5 : IVec S2x600000 32) (x6 : FVec Ideal S600000 .f32) :
    val_main_v29 (F := Ideal) x0 x3 x4 x5 x6
      = spread (val_main_v16 (F := Ideal) x0 x5 x6) (val_main_v22 (F := Ideal) x3) x4 := by
  funext i
  show _ = softplus (affine (val_main_v16 (F := Ideal) x0 x5 x6) (val_main_v22 (F := Ideal) x3) x4 i) + Ideal.ofBits .f32 0x2EDBE6FF#32
  rw [val_main_v29_apply, val_main_v27_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, pre_eq]
  generalize affine (val_main_v16 (F := Ideal) x0 x5 x6) (val_main_v22 (F := Ideal) x3) x4 i = a
  rw [val_main_call0_v0_apply, val_main_call0_v2_apply, val_main_call0_v5_apply, val_main_call0_cst_apply,
    val_main_v28_apply, val_main_cst_1_apply]
  simp only [Ideal.addf_def, Ideal.subf_def, Ideal.maximumf_def, Ideal.hostUnary_log1p_def, Ideal.hostUnary_exp_def,
    Ideal.hostNegf_def, Ideal.hostAbsf_def, Ideal.negf_def, Ideal.ofBits_def, Ideal.ofBits_zero_f32]
  exact congrArg (· + Ideal.ofBits .f32 0x2EDBE6FF#32) (softplus_of_unordered a)

end Cert.ReferenceIdeal.RefValue

end
-- ==== Proof.KernelPayload.lean ====
/-
  What the kernel body computes on one block, read at an index of the block, on the extended reals.

  The body loads a `[5000, 128]` block of the message array, the two `[128, 128]` transposed weights and the two
  `[1, 128]` bias rows. Narrowing to bf16 is the identity here, and a matrix product into a zero accumulator is the
  plain sum over the contracted axis, so the first stored value at `(p, q)` is
  `(∑ k, x (p, k) · w (k, q)) + b (0, q)`, and the second is the guarded softplus of the same expression in the other
  weight and bias, plus `ε`.
-/
import proofs.«137854_j51496657879183_1_alg».proof.Proof.Gen.KernelIdeal.Skeleton
import proofs.«137854_j51496657879183_1_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.Projection

/-! ## The matrix product's operand indices -/

/-- The left operand's row is the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and its column the contracted position. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted position … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and its column the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product into a zero accumulator, at an output index: row times column, summed over the 128 contracted
    positions. -/
theorem product_at {φ₁ φ₂ : FTy} (a : FVec Ideal S5000x128 φ₁) (w : FVec Ideal S128x128 φ₂) (j : S5000x128.Idx) :
    FloatOps.matmul dot_S5000x128_S128x128_S5000x128_1_0_0_1_n_n none a w (constant S5000x128 .f32 0x00000000#32) j
      = ∑ k : Fin 128, a (ix2 (j 0) k) * w (ix2 k (j 1)) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = ix2 (j 0) k := funext fun a => Fin.ext (by
    match a with
    | ⟨0, _⟩ => exact lhs_row _ _
    | ⟨1, _⟩ => exact (lhs_col _ _).trans hk)
  have er : dot_S5000x128_S128x128_S5000x128_1_0_0_1_n_n.rhsIdx j ((ValueIdx.contrEquiv1 dot_S5000x128_S128x128_S5000x128_1_0_0_1_n_n 128 rfl rfl).symm k) = ix2 k (j 1) := funext fun a => Fin.ext (by
    match a with
    | ⟨0, _⟩ => exact (rhs_row _ _).trans hk
    | ⟨1, _⟩ => exact rhs_col _ _)
  exact congrArg₂ (· * ·) (congrArg a el) (congrArg w er)

/-- A `[1, 128]` row repeated down 5000 rows is read at its one row and the output's column. -/
theorem row_repeated_at (b : FVec Ideal S1x128 .f32) (j : S5000x128.Idx) :
    broadcastTo S5000x128 b broadcasts_S1x128_S5000x128 j = b (ix2 0 (j 1)) :=
  broadcastTo_apply b broadcasts_S1x128_S5000x128 j (ix2 0 (j 1)) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-- The block's affine expression at `j`: what both stored values are built from. -/
def blockAffine (x : Vec Ideal S5000x128 .f32) (w : Vec Ideal S128x128 .f32) (b : Vec Ideal S1x128 .f32) (j : S5000x128.Idx) : EReal :=
  (∑ k : Fin 128, x (ix2 (j 0) k) * w (ix2 k (j 1))) + b (ix2 0 (j 1))

/-- The affine part of either stored value at an index of the block: narrowing is the identity, the casts are to the same
    shape, the product starts from zero. -/
theorem affine_part_at (x : Vec Ideal S5000x128 .f32) (w : Vec Ideal S128x128 .f32) (b : Vec Ideal S1x128 .f32) (j : S5000x128.Idx) :
    (addf (matmul dot_S5000x128_S128x128_S5000x128_1_0_0_1_n_n none (k0_pay1 (F := Ideal) x) (truncf .bf16 (shapeCast S128x128 w shapeCasts_S128x128_S128x128) bitsLt_bf16_f32) (constant S5000x128 .f32 0x00000000#32))
      (broadcastTo S5000x128 (shapeCast S1x128 b shapeCasts_S1x128_S1x128) broadcasts_S1x128_S5000x128)) j = blockAffine x w b j := by
  unfold k0_pay1 blockAffine
  show FloatOps.matmul dot_S5000x128_S128x128_S5000x128_1_0_0_1_n_n none _ _ (constant S5000x128 .f32 0x00000000#32) j + broadcastTo S5000x128 _ broadcasts_S1x128_S5000x128 j = _
  rw [product_at, row_repeated_at]
  simp only [shapeCast_self]
  rfl

/-- The first stored value at an index of the block. -/
theorem first_at (x0 : Vec Ideal S5000x128 .f32) (x1 : Vec Ideal S128x128 .f32) (x2 : Vec Ideal S1x128 .f32) (j : S5000x128.Idx) :
    k0_pay2 (F := Ideal) x0 x1 x2 j = blockAffine x0 x1 x2 j := by
  unfold k0_pay2
  exact affine_part_at x0 x1 x2 j

/-- The second stored value at an index of the block: the softplus of the affine expression, plus `ε`. -/
theorem second_at (x0 : Vec Ideal S5000x128 .f32) (x3 : Vec Ideal S128x128 .f32) (x4 : Vec Ideal S1x128 .f32) (j : S5000x128.Idx) :
    k0_pay3 (F := Ideal) x0 x3 x4 j = softplus (blockAffine x0 x3 x4 j) + Ideal.ofBits .f32 0x2EDBE6FF#32 := by
  unfold k0_pay3
  refine (congrArg (· + Ideal.ofBits .f32 0x2EDBE6FF#32) (softplus_guarded_ordered
    ((addf (matmul dot_S5000x128_S128x128_S5000x128_1_0_0_1_n_n none (k0_pay1 (F := Ideal) x0) (truncf .bf16 (shapeCast S128x128 x3 shapeCasts_S128x128_S128x128) bitsLt_bf16_f32) (constant S5000x128 .f32 0x00000000#32))
      (broadcastTo S5000x128 (shapeCast S1x128 x4 shapeCasts_S1x128_S1x128) broadcasts_S1x128_S5000x128)) j)
    (Ideal.ofBits .f32 0x00000000#32) Ideal.ofBits_zero_f32)).trans ?_
  rw [affine_part_at]

end Cert.KernelIdeal.Payload

end
-- ==== Proof.KernelBlocks.lean ====
/-
  The blocks a grid point reads, entry by entry, as entries of the arrays and arguments they are cut from.

  The grid has 20 points. Point `t` reads rows `5000·t … 5000·t + 4999` of the message array and the whole of both
  weights and both bias rows, and writes the same rows of both results: row `p` of a block is row `5000·t + p` of its
  array, and a column of a block is the same column of its array.

  The bias rows reach the kernel as `[1, 128]` reshapes of the `[128]` arguments; a reshape keeps row-major position,
  so entry `(0, q)` of the row is entry `q` of the argument.
-/
import proofs.«137854_j51496657879183_1_alg».proof.Proof.Gen.KernelIdeal.Value
import proofs.«137854_j51496657879183_1_alg».proof.Proof.KernelPayload
import proofs.«137854_j51496657879183_1_alg».proof.Proof.Spec
import Idealize.ShloMosaic.Lib.StableHlo.Run

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.Projection Cert.KernelIdeal.Payload
open Idealize.ShloMosaic.Pipeline (Dat)

variable (m : (ℓ : Loc nD τ sig) → Buf (Elt Ideal) ℓ) (ρ : Dev nD → PrngReg)

/-- The blocks point `t` reads, each at its literal type: the message block, the two weights, the two bias rows. -/
abbrev msgBlock (c : Dev nD) (t : Fin cfg0.N) : Vec Ideal S5000x128 .f32 := iblk m c 0 t
abbrev wt1Block (c : Dev nD) (t : Fin cfg0.N) : Vec Ideal S128x128 .f32 := iblk m c 1 t
abbrev b1Block (c : Dev nD) (t : Fin cfg0.N) : Vec Ideal S1x128 .f32 := iblk m c 2 t
abbrev wt2Block (c : Dev nD) (t : Fin cfg0.N) : Vec Ideal S128x128 .f32 := iblk m c 3 t
abbrev b2Block (c : Dev nD) (t : Fin cfg0.N) : Vec Ideal S1x128 .f32 := iblk m c 4 t
/-- The array index that index `j` of point `t`'s block stands for, in the first and in the second result. -/
abbrev at5 (t : Fin cfg0.N) (j : S5000x128.Idx) : S100000x128.Idx := ((cfg0.win 5).blk t).view.emb j
abbrev at6 (t : Fin cfg0.N) (j : S5000x128.Idx) : S100000x128.Idx := ((cfg0.win 6).blk t).view.emb j

theorem origin : (![0, 0] : Fin 2 → Nat) = fun _ => 0 := funext fun a => by fin_cases a <;> rfl

/-! ## The bias rows as the region finds them -/

/-- The first bias row is the first bias argument, reshaped. -/
theorem bias1_row (c : Dev nD) :
    (V m c main_v19 : S1x128.Idx → EReal) = shapeCast S1x128 (m ((c : Thread nD τ).loc main_arg2)) shapeCasts_S128_S1x128 := by
  dsimp only [V, hostOps0]; after_results; rfl
/-- The second bias row is the second bias argument, reshaped. -/
theorem bias2_row (c : Dev nD) :
    (V m c main_v20 : S1x128.Idx → EReal) = shapeCast S1x128 (m ((c : Thread nD τ).loc main_arg4)) shapeCasts_S128_S1x128 := by
  dsimp only [V, hostOps0]; after_results; rfl

/-- Entry `(0, q)` of a `[128]` vector reshaped to a row is entry `q` of the vector. -/
theorem row_of_vector_at (b : S128.Idx → EReal) (y : S1x128.Idx) (q : Fin 128) (hq : (y 1).val = q.val) :
    shapeCast S1x128 b shapeCasts_S128_S1x128 y = b (ix1 q) :=
  shapeCast_apply b shapeCasts_S128_S1x128 y (ix1 q) (by
    rw [Shape.rowMajor_val_one, Shape.rowMajor_val_two]
    have h0 : (y 0).val < 1 := (y 0).isLt
    show q.val = (y 0).val * 128 + (y 1).val
    omega)

/-! ## The index maps, decided over the 20 points -/

/-- The message block and both result blocks sit at row block `t`, column block `0`; the weights and bias rows at
    block `(0, 0)`. -/
theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])

/-- The message block and both result blocks move together down the rows; everything else stays at block `(0, 0)`. -/
theorem index_facts (t : Fin cfg0.N) :
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0
    ∧ win0_6.index t (0 : Fin 2) = win0_5.index t (0 : Fin 2) ∧ win0_6.index t (1 : Fin 2) = 0 :=
  ⟨(congrFun (index0 t) 0).trans (congrFun (index5 t) 0).symm, congrFun (index0 t) 1,
    congrFun (index1 t) 0, congrFun (index1 t) 1, congrFun (index2 t) 0, congrFun (index2 t) 1,
    congrFun (index3 t) 0, congrFun (index3 t) 1, congrFun (index4 t) 0, congrFun (index4 t) 1,
    congrFun (index5 t) 1, (congrFun (index6 t) 0).trans (congrFun (index5 t) 0).symm, congrFun (index6 t) 1⟩

/-! ## One block of the affine map -/

/-- The block-level affine expression over the blocks a point reads, at `j`, is the whole-array affine map at the
    array index `i` that `j` stands for: same row of the message array, same column, whole weight, bias at the column. -/
theorem block_is_affine (c : Dev nD) (wt : Sq.Idx → EReal) (b : Lane.Idx → EReal)
    (X : Vec Ideal S5000x128 .f32) (W : Vec Ideal S128x128 .f32) (B : Vec Ideal S1x128 .f32)
    (j : S5000x128.Idx) (i : S100000x128.Idx)
    (hX : ∀ k : Fin 128, X (ix2 (j 0) k) = V m c main_v16 (ix2 (i 0) k))
    (hW : ∀ k : Fin 128, W (ix2 k (j 1)) = wt (ix2 k (i 1)))
    (hB : B (ix2 0 (j 1)) = b (ix1 (i 1))) :
    blockAffine X W B j = affine (V m c main_v16) wt b i := by
  unfold blockAffine affine
  exact congrArg₂ (· + ·) (Finset.sum_congr rfl fun k _ => congrArg₂ (· * ·) (hX k) (hW k)) hB

/-! ## The blocks' entries as entries of their arrays -/

/-- Row `p` of the message block at point `t` is row `5000·t + p` of the message array, the row the first result's
    block puts `p` at. -/
theorem message_row (c : Dev nD) (t : Fin cfg0.N) (j : S5000x128.Idx) (k : Fin 128) :
    msgBlock m c t (ix2 (j 0) k) = V m c main_v16 (ix2 (at5 t j 0) k) := by
  obtain ⟨e00, e01, -⟩ := index_facts t
  show V m c main_v16 (((cfg0.win 0).blk t).view.emb (ix2 (j 0) k)) = _
  refine congrArg (V m c main_v16) (funext fun a => Fin.ext ?_)
  match a with
  | ⟨0, _⟩ => show win0_0.index t (0 : Fin 2) * 5000 + 1 * (j 0).val = win0_5.index t (0 : Fin 2) * 5000 + 1 * (j 0).val; omega
  | ⟨1, _⟩ => show win0_0.index t (1 : Fin 2) * 128 + 1 * k.val = k.val; omega

/-- The same row, for the second result's block. -/
theorem message_row' (c : Dev nD) (t : Fin cfg0.N) (j : S5000x128.Idx) (k : Fin 128) :
    msgBlock m c t (ix2 (j 0) k) = V m c main_v16 (ix2 (at6 t j 0) k) := by
  obtain ⟨e00, e01, -, -, -, -, -, -, -, -, -, e60, -⟩ := index_facts t
  show V m c main_v16 (((cfg0.win 0).blk t).view.emb (ix2 (j 0) k)) = _
  refine congrArg (V m c main_v16) (funext fun a => Fin.ext ?_)
  match a with
  | ⟨0, _⟩ => show win0_0.index t (0 : Fin 2) * 5000 + 1 * (j 0).val = win0_6.index t (0 : Fin 2) * 5000 + 1 * (j 0).val; omega
  | ⟨1, _⟩ => show win0_0.index t (1 : Fin 2) * 128 + 1 * k.val = k.val; omega

/-- The first weight's block is the whole weight, and the first result's block keeps the column. -/
theorem weight1_entry (c : Dev nD) (t : Fin cfg0.N) (j : S5000x128.Idx) (k : Fin 128) :
    wt1Block m c t (ix2 k (j 1)) = V m c main_v17 (ix2 k (at5 t j 1)) := by
  obtain ⟨-, -, e10, e11, -, -, -, -, -, -, e51, -⟩ := index_facts t
  show V m c main_v17 (((cfg0.win 1).blk t).view.emb (ix2 k (j 1))) = _
  refine congrArg (V m c main_v17) (funext fun a => Fin.ext ?_)
  match a with
  | ⟨0, _⟩ => show win0_1.index t (0 : Fin 2) * 128 + 1 * k.val = k.val; omega
  | ⟨1, _⟩ => show win0_1.index t (1 : Fin 2) * 128 + 1 * (j 1).val = win0_5.index t (1 : Fin 2) * 128 + 1 * (j 1).val; omega

/-- The second weight's block is the whole weight, and the second result's block keeps the column. -/
theorem weight2_entry (c : Dev nD) (t : Fin cfg0.N) (j : S5000x128.Idx) (k : Fin 128) :
    wt2Block m c t (ix2 k (j 1)) = V m c main_v18 (ix2 k (at6 t j 1)) := by
  obtain ⟨-, -, -, -, -, -, e30, e31, -, -, -, -, e61⟩ := index_facts t
  show V m c main_v18 (((cfg0.win 3).blk t).view.emb (ix2 k (j 1))) = _
  refine congrArg (V m c main_v18) (funext fun a => Fin.ext ?_)
  match a with
  | ⟨0, _⟩ => show win0_3.index t (0 : Fin 2) * 128 + 1 * k.val = k.val; omega
  | ⟨1, _⟩ => show win0_3.index t (1 : Fin 2) * 128 + 1 * (j 1).val = win0_6.index t (1 : Fin 2) * 128 + 1 * (j 1).val; omega

/-- The first bias row's block is the whole row: its entry at the block's column is the first bias argument at the
    first result's column. -/
theorem bias1_entry (c : Dev nD) (t : Fin cfg0.N) (j : S5000x128.Idx) :
    b1Block m c t (ix2 0 (j 1)) = m ((c : Thread nD τ).loc main_arg2) (ix1 (at5 t j 1)) := by
  obtain ⟨-, -, -, -, e20, e21, -, -, -, -, e51, -⟩ := index_facts t
  show V m c main_v19 (((cfg0.win 2).blk t).view.emb (ix2 0 (j 1))) = _
  rw [bias1_row]
  refine row_of_vector_at _ _ _ ?_
  show win0_2.index t (1 : Fin 2) * 128 + 1 * (j 1).val = win0_5.index t (1 : Fin 2) * 128 + 1 * (j 1).val
  omega

/-- The second bias row, for the second result. -/
theorem bias2_entry (c : Dev nD) (t : Fin cfg0.N) (j : S5000x128.Idx) :
    b2Block m c t (ix2 0 (j 1)) = m ((c : Thread nD τ).loc main_arg4) (ix1 (at6 t j 1)) := by
  obtain ⟨-, -, -, -, -, -, -, -, e40, e41, -, -, e61⟩ := index_facts t
  show V m c main_v20 (((cfg0.win 4).blk t).view.emb (ix2 0 (j 1))) = _
  rw [bias2_row]
  refine row_of_vector_at _ _ _ ?_
  show win0_4.index t (1 : Fin 2) * 128 + 1 * (j 1).val = win0_6.index t (1 : Fin 2) * 128 + 1 * (j 1).val
  omega

end Cert.KernelIdeal.Blocks

end
-- ==== Proof.KernelFlushed.lean ====
/-
  What a grid point writes back. Point `t`'s stored values are the block-level affine expression of the blocks it
  reads (first result) and its softplus plus `ε` (second result); entry by entry those blocks are the arrays' rows
  `5000·t + p`, so what is written is block `t` of the whole-array functions.
-/
import proofs.«137854_j51496657879183_1_alg».proof.Proof.Gen.KernelIdeal.Value
import proofs.«137854_j51496657879183_1_alg».proof.Proof.KernelPayload
import proofs.«137854_j51496657879183_1_alg».proof.Proof.Spec
import proofs.«137854_j51496657879183_1_alg».proof.Proof.KernelBlocks
set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Projection Cert.KernelIdeal.Payload
open Idealize.ShloMosaic.Pipeline (Dat)

variable (m : (ℓ : Loc nD τ sig) → Buf (Elt Ideal) ℓ) (ρ : Dev nD → PrngReg)

/-- What the body leaves for the first result, from the blocks at their literal types: the one store's value. -/
theorem stored5 (c : Dev nD) (t : Fin cfg0.N) :
    out0_5 (F := Ideal) (iblk m c 0 t) (iblk m c 1 t) (iblk m c 2 t) (iblk m c 3 t) (iblk m c 4 t)
      = k0_pay2 (F := Ideal) (msgBlock m c t) (wt1Block m c t) (b1Block m c t) := by
  unfold out0_5
  rw [View.canon_unit_zero origin]
  simp only [View.ld_unit_zero (S := S5000x128) origin, View.ld_unit_zero (S := S128x128) origin, View.ld_unit_zero (S := S1x128) origin]

/-- What the body leaves for the second result. -/
theorem stored6 (c : Dev nD) (t : Fin cfg0.N) :
    out0_6 (F := Ideal) (iblk m c 0 t) (iblk m c 1 t) (iblk m c 2 t) (iblk m c 3 t) (iblk m c 4 t)
      = k0_pay3 (F := Ideal) (msgBlock m c t) (wt2Block m c t) (b2Block m c t) := by
  unfold out0_6
  rw [View.canon_unit_zero origin]
  simp only [View.ld_unit_zero (S := S5000x128) origin, View.ld_unit_zero (S := S128x128) origin, View.ld_unit_zero (S := S1x128) origin]

/-- The first stored value at `j` is the affine map at the array index `j` stands for. -/
theorem stored5_at (c : Dev nD) (t : Fin cfg0.N) (j : S5000x128.Idx) :
    k0_pay2 (F := Ideal) (msgBlock m c t) (wt1Block m c t) (b1Block m c t) j
      = affine (V m c main_v16) (V m c main_v17) (m ((c : Thread nD τ).loc main_arg2)) (at5 t j) :=
  (first_at (msgBlock m c t) (wt1Block m c t) (b1Block m c t) j).trans
    (block_is_affine m c (V m c main_v17) (m ((c : Thread nD τ).loc main_arg2)) (msgBlock m c t) (wt1Block m c t) (b1Block m c t) j (at5 t j)
      (message_row m c t j) (weight1_entry m c t j) (bias1_entry m c t j))

/-- The second stored value at `j` is the softplus of the affine map there, plus `ε`. -/
theorem stored6_at (c : Dev nD) (t : Fin cfg0.N) (j : S5000x128.Idx) :
    k0_pay3 (F := Ideal) (msgBlock m c t) (wt2Block m c t) (b2Block m c t) j
      = spread (V m c main_v16) (V m c main_v18) (m ((c : Thread nD τ).loc main_arg4)) (at6 t j) :=
  (second_at (msgBlock m c t) (wt2Block m c t) (b2Block m c t) j).trans
    (congrArg (fun v => softplus v + Ideal.ofBits .f32 0x2EDBE6FF#32)
      (block_is_affine m c (V m c main_v18) (m ((c : Thread nD τ).loc main_arg4)) (msgBlock m c t) (wt2Block m c t) (b2Block m c t) j (at6 t j)
        (message_row' m c t j) (weight2_entry m c t j) (bias2_entry m c t j)))

/-- WHAT POINT `t` WRITES BACK to the first result is block `t` of the affine map. -/
theorem flushed5_eq (c : Dev nD) (t : Fin cfg0.N) :
    (dats m 0 c).flushed 5 t = ((cfg0.win 5).blk t).view.read (Elt Ideal)
      (affine (V m c main_v16) (V m c main_v17) (m ((c : Thread nD τ).loc main_arg2))) := by
  rw [Cert.KernelIdeal.Value.flushed5, stored5]
  exact funext fun j => stored5_at m c t j

/-- WHAT POINT `t` WRITES BACK to the second result is block `t` of the softplus of the affine map, plus `ε`. -/
theorem flushed6_eq (c : Dev nD) (t : Fin cfg0.N) :
    (dats m 0 c).flushed 6 t = ((cfg0.win 6).blk t).view.read (Elt Ideal)
      (spread (V m c main_v16) (V m c main_v18) (m ((c : Thread nD τ).loc main_arg4))) := by
  rw [Cert.KernelIdeal.Value.flushed6, stored6]
  exact funext fun j => stored6_at m c t j

end Cert.KernelIdeal.Blocks

end
-- ==== Proof.KernelValue.lean ====
/-
  From blocks to arrays: the 20 points' blocks tile the 100000 rows of either result, and each point writes its block
  of one whole-array function, so after the run the first result IS the affine map of the message array and the second
  IS its softplus plus `ε`.
-/
import proofs.«137854_j51496657879183_1_alg».proof.Proof.Gen.KernelIdeal.Value
import proofs.«137854_j51496657879183_1_alg».proof.Proof.KernelPayload
import proofs.«137854_j51496657879183_1_alg».proof.Proof.Spec
import proofs.«137854_j51496657879183_1_alg».proof.Proof.KernelBlocks
import proofs.«137854_j51496657879183_1_alg».proof.Proof.KernelFlushed
set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Projection Cert.KernelIdeal.Payload
open Idealize.ShloMosaic.Pipeline (Dat)

variable (m : (ℓ : Loc nD τ sig) → Buf (Elt Ideal) ℓ) (ρ : Dev nD → PrngReg)

/-! ## The 20 blocks tile the rows -/

/-- An index of the first result is in point `t`'s block iff each coordinate is in the block's range on its axis. -/
theorem mem_block5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21_0).slice (win0_5.rect t)).set ↔ _
  rw [View.set_slice_whole, Rect.mem_set_unit]
  exact Iff.rfl
/-- The same for the second result. -/
theorem mem_block6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v21_1).slice (win0_6.rect t)).set ↔ _
  rw [View.set_slice_whole, Rect.mem_set_unit]
  exact Iff.rfl

/-- Row `r` of the first result lies in the block of the point whose row block is `r / 5000`. -/
theorem covered5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; omega
  have q0 : win0_5.index ⟨(i 0).val / 5000, ht⟩ (0 : Fin 2) = (i 0).val / 5000 := congrFun (index5 ⟨(i 0).val / 5000, ht⟩) 0
  have q1 : win0_5.index ⟨(i 0).val / 5000, ht⟩ (1 : Fin 2) = 0 := congrFun (index5 ⟨(i 0).val / 5000, ht⟩) 1
  generalize (⟨(i 0).val / 5000, ht⟩ : Fin cfg0.N) = t at q0 q1
  refine ⟨t, flush0_5 t, ?_⟩
  rw [mem_block5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega
/-- The same for the second result. -/
theorem covered6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; omega
  have q0 : win0_6.index ⟨(i 0).val / 5000, ht⟩ (0 : Fin 2) = (i 0).val / 5000 := congrFun (index6 ⟨(i 0).val / 5000, ht⟩) 0
  have q1 : win0_6.index ⟨(i 0).val / 5000, ht⟩ (1 : Fin 2) = 0 := congrFun (index6 ⟨(i 0).val / 5000, ht⟩) 1
  generalize (⟨(i 0).val / 5000, ht⟩ : Fin cfg0.N) = t at q0 q1
  refine ⟨t, flush0_6 t, ?_⟩
  rw [mem_block6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-! ## The arrays after the run -/

/-- The first result array after the run is the affine map of the message array, the first transposed weight and the
    first bias. -/
theorem final5 (c : Dev nD) :
    (dats m 0 c).arrAt 5 cfg0.N = affine (V m c main_v16) (V m c main_v17) (m ((c : Thread nD τ).loc main_arg2)) :=
  (dats m 0 c).arrAt_eq_of_cover 5 (affine (V m c main_v16) (V m c main_v17) (m ((c : Thread nD τ).loc main_arg2)))
    (fun t _ => flushed5_eq m c t) covered5

/-- The second result array after the run is the softplus of the affine map in the second weight and bias, plus `ε`. -/
theorem final6 (c : Dev nD) :
    (dats m 0 c).arrAt 6 cfg0.N = spread (V m c main_v16) (V m c main_v18) (m ((c : Thread nD τ).loc main_arg4)) :=
  (dats m 0 c).arrAt_eq_of_cover 6 (spread (V m c main_v16) (V m c main_v18) (m ((c : Thread nD τ).loc main_arg4)))
    (fun t _ => flushed6_eq m c t) covered6

/-- The run, with both result arrays named as whole-array functions and the arguments unchanged. -/
theorem run : θ_run defs (onTc (τ := τ) (main (F := Ideal))) ⟨m, fun _ => 0, ρ⟩ fun r => ∀ c : Dev nD,
      r.2.mem ((c : Thread nD τ).loc main_v21_0) = affine (V m c main_v16) (V m c main_v17) (m ((c : Thread nD τ).loc main_arg2))
      ∧ r.2.mem ((c : Thread nD τ).loc main_v21_1) = spread (V m c main_v16) (V m c main_v18) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final5 m c), (h c).2.1.trans (final6 m c), (h c).2.2⟩)
    (Cert.KernelIdeal.Value.run_blocks m ρ)

end Cert.KernelIdeal.Blocks

end
-- ==== Proof.Shared.lean ====
/-
  The two programs build the message array and the transposed weights by the same host operations of the same
  arguments: what the kernel's region finds in those three buffers is, term for term, the reference's stage of the
  kernel's own arguments. Nothing here opens the gather or the scatter-add: the two composed terms are compared whole.
-/
import proofs.«137854_j51496657879183_1_alg».proof.Proof.Gen.KernelIdeal.Frame
import proofs.«137854_j51496657879183_1_alg».proof.Proof.Gen.ReferenceIdeal.Read
import proofs.«137854_j51496657879183_1_alg».proof.Proof.Spec
import Idealize.ShloMosaic.Lib.StableHlo.Run

set_option maxRecDepth 16384

noncomputable section

namespace Cert.Proof.Shared

open Idealize.ShloMosaic Idealize.ShloMosaic.TcCoe Idealize.SL.Sem Idealize.ShloMosaic.StableHlo Cert.Projection
open Cert.KernelIdeal Cert.KernelIdeal.Gen

variable (m : (ℓ : Loc nD τ sig) → Buf (Elt Ideal) ℓ)

set_option maxHeartbeats 4000000 in
/-- The message array the region finds is the reference's scatter-add stage of the kernel's arguments. -/
theorem messages_eq (c : Dev nD) :
    (V m c main_v16 : Rows.Idx → EReal)
      = Cert.ReferenceIdeal.Read.val_main_v16 (F := Ideal) (m ((c : Thread nD τ).loc main_arg0))
          (m ((c : Thread nD τ).loc main_arg5)) (m ((c : Thread nD τ).loc main_arg6)) := by
  dsimp only [V, hostOps0]; after_results; rfl

/-- The first transposed weight the region finds is the reference's transpose stage of the first weight. -/
theorem weight1_eq (c : Dev nD) :
    (V m c main_v17 : Sq.Idx → EReal) = Cert.ReferenceIdeal.Read.val_main_v17 (F := Ideal) (m ((c : Thread nD τ).loc main_arg1)) := by
  dsimp only [V, hostOps0]; after_results; rfl

/-- The second transposed weight the region finds is the reference's transpose stage of the second weight. -/
theorem weight2_eq (c : Dev nD) :
    (V m c main_v18 : Sq.Idx → EReal) = Cert.ReferenceIdeal.Read.val_main_v22 (F := Ideal) (m ((c : Thread nD τ).loc main_arg3)) := by
  dsimp only [V, hostOps0]; after_results; rfl

end Cert.Proof.Shared

end
-- ==== Proof.lean ====
/-
  The kernel and its reference compute the same two arrays on the extended reals.

  Both programs gather rows of the embedding table along the edges' sources, scale each by its edge weight and add
  it into the row of its edge's target: one `[100000, 128]` message array `ptr`, built by the same host operations of
  the same arguments on both sides, and never opened here. Both then return

      loc = ptr · W₁ᵀ + b₁          std = softplus (ptr · W₂ᵀ + b₂) + ε.

  The reference does this with two whole `dot_general`s and a host softplus. The kernel walks 20 blocks of 5000
  rows; on each it narrows its operands to bf16 (the identity on extended reals), multiplies into a zero accumulator
  (the plain sum over the 128 contracted positions), adds the bias row, and for `std` applies the same stabilised
  softplus `max x 0 + log (1 + exp (-|x|))`, whose `x ≠ x` guard no extended real ever takes. Row `p` of block `t`
  is row `5000·t + p` of the array and the blocks tile the rows, so each result array is the same whole-array function
  on both sides. Only commutative-monoid facts about finite sums are used: no law here needs the inputs finite.

  No operation of the kernel is replaced for its reading on the extended reals: that reading is the kernel's own text.
-/
import proofs.«137854_j51496657879183_1_alg».proof.Defs
import proofs.«137854_j51496657879183_1_alg».proof.Proof.Gen.Kernel
import proofs.«137854_j51496657879183_1_alg».proof.Proof.Gen.Kernel.Skeleton
import proofs.«137854_j51496657879183_1_alg».proof.Proof.Gen.Kernel.Launch
import proofs.«137854_j51496657879183_1_alg».proof.Proof.Gen.Kernel.Points
import proofs.«137854_j51496657879183_1_alg».proof.Proof.Gen.Kernel.Frame
import proofs.«137854_j51496657879183_1_alg».proof.Proof.Gen.KernelIdeal
import proofs.«137854_j51496657879183_1_alg».proof.Proof.Gen.KernelIdeal.Skeleton
import proofs.«137854_j51496657879183_1_alg».proof.Proof.Gen.KernelIdeal.Launch
import proofs.«137854_j51496657879183_1_alg».proof.Proof.Gen.KernelIdeal.Points
import proofs.«137854_j51496657879183_1_alg».proof.Proof.Gen.KernelIdeal.Frame
import proofs.«137854_j51496657879183_1_alg».proof.Proof.Gen.ReferenceIdeal
import proofs.«137854_j51496657879183_1_alg».proof.Proof.Gen.Pre_finite_inputs
import proofs.«137854_j51496657879183_1_alg».proof.Proof.Gen.KernelIdeal.Value
import proofs.«137854_j51496657879183_1_alg».proof.Proof.Gen.ReferenceIdeal.Run
import proofs.«137854_j51496657879183_1_alg».proof.Proof.Gen.ReferenceIdeal.Read
import proofs.«137854_j51496657879183_1_alg».proof.Proof.Spec
import proofs.«137854_j51496657879183_1_alg».proof.Proof.RefValue
import proofs.«137854_j51496657879183_1_alg».proof.Proof.KernelPayload
import proofs.«137854_j51496657879183_1_alg».proof.Proof.KernelValue
import proofs.«137854_j51496657879183_1_alg».proof.Proof.Shared
import Idealize.ShloMosaic.Adequacy
import Idealize.ShloMosaic.Init

noncomputable section

namespace Cert.Proof

open Idealize.ShloMosaic Idealize.SL.Sem Cert.Projection

/-- The kernel as printed runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is host operations only: its run, with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The kernel's reading on the extended reals replaces no operation: there is nothing to preserve. -/
theorem preserves : Cert.preserves_Kernel_KernelIdeal := trivial

/-- From memories agreeing on the arguments, both programs end with `loc` at the affine map of the message array in the
    first weight and bias, and `std` at the softplus of the affine map in the second weight and bias, plus `ε`. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, -, -, h5, h6⟩ := hagree c
    rw [Cert.ReferenceIdeal.Read.val_main_v21_eq, Cert.ReferenceIdeal.RefValue.loc_eq, h0, h1, h2, h5, h6,
      Shared.messages_eq, Shared.weight1_eq]
  · obtain ⟨h0, -, -, h3, h4, h5, h6⟩ := hagree c
    rw [Cert.ReferenceIdeal.Read.val_main_v29_eq, Cert.ReferenceIdeal.RefValue.std_eq, h0, h3, h4, h5, h6,
      Shared.messages_eq, Shared.weight2_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
